-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x4096 : Shape := ⟨3, ![2, 512, 4096]⟩
abbrev S16384x4096 : Shape := ⟨2, ![16384, 4096]⟩
abbrev S16384 : Shape := ⟨1, ![16384]⟩
abbrev S_ : Shape := ⟨0, ![]⟩

class Facts : Prop where
  bcast_S_S2x512x4096 : S_.BroadcastsInDim S2x512x4096 (![] : Fin 0 → Fin S2x512x4096.rank)
  reducesTo_S2x512x4096_S_d0_1_2 : S2x512x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S2x512x4096 .f32) (main_arg1 : IVec S16384x4096 32) (main_arg2 : FVec F S16384 .f32) (main_arg3 : FVec F S16384 .f32) : IVec S_ 1 :=
  let main_v0 : FVec F S2x512x4096 .f32 := Host.absf main_arg0
  let main_cst : FVec F S_ .f32 := constant S_ .f32 0x7F800000#32
  let main_v1 : FVec F S2x512x4096 .f32 := broadcastInDim S2x512x4096 ![] bcast_S_S2x512x4096 main_cst
  let main_v2 : IVec S2x512x4096 1 := cmpf .olt main_v0 main_v1
  let main_c : IVec S_ 1 := constantI S_ 1 1#1
  let main_v3 : IVec S_ 1 := (fun x v => Host.reduce IntOp.andi x v reducesTo_S2x512x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S2x512x4096 : Shape := ⟨3, ![2, 512, 4096]⟩
abbrev S16384x4096 : Shape := ⟨2, ![16384, 4096]⟩
abbrev S16384 : Shape := ⟨1, ![16384]⟩
abbrev S1024x4096 : Shape := ⟨2, ![1024, 4096]⟩
abbrev S16384x1 : Shape := ⟨2, ![16384, 1]⟩
abbrev S1x16384 : Shape := ⟨2, ![1, 16384]⟩
abbrev S1024x16384 : Shape := ⟨2, ![1024, 16384]⟩
abbrev S256x4096 : Shape := ⟨2, ![256, 4096]⟩
abbrev S512x4096 : Shape := ⟨2, ![512, 4096]⟩
abbrev S512x1 : Shape := ⟨2, ![512, 1]⟩
abbrev S1x512 : Shape := ⟨2, ![1, 512]⟩
abbrev S256x512 : Shape := ⟨2, ![256, 512]⟩
abbrev S4096x512 : Shape := ⟨2, ![4096, 512]⟩
abbrev S2x512x16384 : Shape := ⟨3, ![2, 512, 16384]⟩

abbrev nBuf : Space → Nat
  | .hbm => 9
  | .vmem => 10
  | .smem => 0
  | _ => 0

abbrev bufTy : (tb : Table) → Fin (tcTables nBuf tb) → BufTy
  | .hbm, ⟨0, _⟩ => ⟨S2x512x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S1024x4096, .f32⟩
  | .hbm, ⟨5, _⟩ => ⟨S16384x1, .f32⟩
  | .hbm, ⟨6, _⟩ => ⟨S1x16384, .f32⟩
  | .hbm, ⟨7, _⟩ => ⟨S1024x16384, .f32⟩
  | .hbm, ⟨8, _⟩ => ⟨S2x512x16384, .f32⟩
  | .local _ .vmem, ⟨0, _⟩ => ⟨S256x4096, .f32⟩
  | .local _ .vmem, ⟨1, _⟩ => ⟨S256x4096, .f32⟩
  | .local _ .vmem, ⟨2, _⟩ => ⟨S512x4096, .i32⟩
  | .local _ .vmem, ⟨3, _⟩ => ⟨S512x4096, .i32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | _, _ => ⟨S2x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x512x4096_S1024x4096 : S2x512x4096.ShapeCasts S1024x4096
  shapeCasts_S16384_S16384x1 : S16384.ShapeCasts S16384x1
  shapeCasts_S16384_S1x16384 : S16384.ShapeCasts S1x16384
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  transposes_S512x4096_p1_0_S4096x512 : S512x4096.Transposes [1, 0] S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  shapeCasts_S1024x16384_S2x512x16384 : S1024x16384.ShapeCasts S2x512x16384
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S1024x4096.size a
  hwx0_0 : ∀ i : grid0.Coords, EltTy.bits .f32 = 32 ∨ (Rect.block (s := S1024x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .i32 = 32 ∨ (Rect.block (s := S16384x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S1024x16384.size a
  hwx0_4 : ∀ i : grid0.Coords, EltTy.bits .f32 = 32 ∨ (Rect.block (s := S1024x16384) S256x512.size (cc0_transform_4 i) (hinb0_4 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x512x4096 : Shape := ⟨3, ![2, 512, 4096]⟩
abbrev S16384x4096 : Shape := ⟨2, ![16384, 4096]⟩
abbrev S16384 : Shape := ⟨1, ![16384]⟩
abbrev S16384x1 : Shape := ⟨2, ![16384, 1]⟩
abbrev S2x512x16384 : Shape := ⟨3, ![2, 512, 16384]⟩
abbrev S1x1x16384 : Shape := ⟨3, ![1, 1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S2x512x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S16384x1, .f32⟩
  | .hbm, ⟨6, _⟩ => ⟨S16384x4096, .f32⟩
  | .hbm, ⟨7, _⟩ => ⟨S16384x4096, .f32⟩
  | .hbm, ⟨8, _⟩ => ⟨S2x512x16384, .f32⟩
  | .hbm, ⟨9, _⟩ => ⟨S1x1x16384, .f32⟩
  | .hbm, ⟨10, _⟩ => ⟨S2x512x16384, .f32⟩
  | .hbm, ⟨11, _⟩ => ⟨S2x512x16384, .f32⟩
  | _, _ => ⟨S2x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S2x512x16384_0_1_2 : S1x1x16384.BroadcastsInDim S2x512x16384 (![0, 1, 2] : Fin 3 → Fin S2x512x16384.rank)
  dot_S2x512x4096_S16384x4096_S2x512x16384_2_1_01_0_n_n_wf : DotDims.WF S2x512x4096 S16384x4096 S2x512x16384 [2] [1] [0, 1] [0] [] []

variable [Facts₀]

def dot_S2x512x4096_S16384x4096_S2x512x16384_2_1_01_0_n_n : DotDims S2x512x4096 S16384x4096 S2x512x16384 where
  lhsContracting := [2]
  rhsContracting := [1]
  lhsNonContracting := [0, 1]
  rhsNonContracting := [0]
  lhsBatch := []
  rhsBatch := []
  wf := dot_S2x512x4096_S16384x4096_S2x512x16384_2_1_01_0_n_n_wf

class Facts : Prop extends Facts₀ where

variable [Facts]
-- ==== Proof.LibColumn.lean ====
/-
  A column kept beside a matrix (what `keepdims=True` leaves): a vector `[a]` cast to the column `[a, 1]`, and a column
  `[a, 1]` broadcast over the `b` lanes of `[a, b]`, each read at an index given by its coordinates; and the source index a
  reduction over the lanes of an `[a, b]` array folds over, by its coordinates.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the row `p` of an `[a, b]` array, the source index a reduction along the lanes visits at lane `k` is `(p, k)`. -/
theorem lift_lanes_ix1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Idealize.ShloMosaic.ValueIdx
-- ==== Proof.LinearSpec.lean ====
/-
  The dequantized linear layer as ONE function of its four arguments, and the same layer over flattened rows.

  With the weight  W[n, k] = float(q[n, k]) · scale[n]  (an integer matrix scaled row by row) the layer is
      y[b, s, n] = (∑ k < 4096, x[b, s, k] · W[n, k]) + bias[n]                                   (`linear`).
  Over the 1024 rows  r = b · 512 + s  of the flattened activations, with the scale held as a column [16384, 1] and
  the bias as a row [1, 16384], it is
      y2[r, n] = (∑ k < 4096, x2[r, k] · (float(q[n, k]) · scale2[n, 0])) + bias2[0, n]            (`linearRows`).
  `linear_eq_rows`: re-laying the arguments in row-major order (which is what a reshape does), computing
  `linearRows`, and re-laying the result back gives `linear` — entry (b, s, n) of the result sits at row-major
  position (b · 512 + s) · 16384 + n in both layouts, entry (b, s, k) of the activations at (b · 512 + s) · 4096 + k,
  and a vector's entry n is entry n of its column and of its row. No arithmetic is moved: the two sums have the
  same terms in the same order, so the identity holds on all extended reals.
-/
import Idealize.ShloMosaic.PureOps.Ideal
import Idealize.ShloMosaic.Lib.ValueIdx
import Idealize.ShloMosaic.Lib.ValueLayout
import Idealize.ShloMosaic.Lib.Pipeline.Value
import proofs.«101968_j18021682774289_1_alg».proof.Proof.LibColumn

noncomputable section

open scoped BigOperators

namespace Cert.Linear

open Idealize.ShloMosaic Idealize.ShloMosaic.ValueIdx

/-- The shapes of the layer: activations, integer weight, scale / bias, result; then the flattened ones. -/
abbrev SX : Shape := ⟨3, ![2, 512, 4096]⟩
abbrev SQ : Shape := ⟨2, ![16384, 4096]⟩
abbrev SN : Shape := ⟨1, ![16384]⟩
abbrev SY : Shape := ⟨3, ![2, 512, 16384]⟩
abbrev SX2 : Shape := ⟨2, ![1024, 4096]⟩
abbrev SCol : Shape := ⟨2, ![16384, 1]⟩
abbrev SRow : Shape := ⟨2, ![1, 16384]⟩
abbrev SY2 : Shape := ⟨2, ![1024, 16384]⟩

/-- y[b, s, n] = (∑ k, x[b, s, k] · (float(q[n, k]) · scale[n])) + bias[n]. -/
def linear (x : SX.Idx → EReal) (q : SQ.Idx → BitVec 32) (scale bias : SN.Idx → EReal) : SY.Idx → EReal :=
  fun i => (∑ k : Fin 4096, x (ix3 (i 0) (i 1) k)
      * (FloatOps.sitofp (F := Ideal) .f32 (q (ix2 (i 2) k)) * scale (ix1 (i 2)))) + bias (ix1 (i 2))

/-- y2[r, n] = (∑ k, x2[r, k] · (float(q[n, k]) · scale2[n, 0])) + bias2[0, n]. -/
def linearRows (x2 : SX2.Idx → EReal) (q : SQ.Idx → BitVec 32) (scale2 : SCol.Idx → EReal) (bias2 : SRow.Idx → EReal) :
    SY2.Idx → EReal :=
  fun j => (∑ k : Fin 4096, x2 (ix2 (j 0) k)
      * (FloatOps.sitofp (F := Ideal) .f32 (q (ix2 (j 1) k)) * scale2 (ix2 (j 1) (0 : Fin 1)))) + bias2 (ix2 (0 : Fin 1) (j 1))

/-- Row r = b · 512 + s of the flattened arrays. -/
def rowOf (b : Fin 2) (s : Fin 512) : Fin 1024 := ⟨b.val * 512 + s.val, by have := b.isLt; have := s.isLt; omega⟩

/-- The flattened activations at (b · 512 + s, k) are the activations at (b, s, k). -/
theorem flatX_apply (x : SX.Idx → EReal) (h : SX.ShapeCasts SX2) (b : Fin 2) (s : Fin 512) (k : Fin 4096) :
    shapeCast SX2 x h (ix2 (rowOf b s) k) = x (ix3 b s k) :=
  shapeCast_apply x h _ _ (by
    rw [Shape.rowMajor_val_three, Shape.rowMajor_val_two]
    show (b.val * 512 + s.val) * 4096 + k.val = (b.val * 512 + s.val) * 4096 + k.val
    rfl)

/-- The flattened rows computed by `linearRows` and laid back out are `linear`. -/
theorem linear_eq_rows (x : SX.Idx → EReal) (q : SQ.Idx → BitVec 32) (scale bias : SN.Idx → EReal)
    (hx : SX.ShapeCasts SX2) (hs : SN.ShapeCasts SCol) (hb : SN.ShapeCasts SRow) (hy : SY2.ShapeCasts SY) :
    shapeCast SY (linearRows (shapeCast SX2 x hx) q (shapeCast SCol scale hs) (shapeCast SRow bias hb)) hy
      = linear x q scale bias := by
  funext i
  obtain ⟨b, s, n, rfl⟩ : ∃ (b : Fin 2) (s : Fin 512) (n : Fin 16384), i = ix3 b s n := ⟨i 0, i 1, i 2, eq_ix3 i⟩
  rw [shapeCast_apply _ hy (ix3 b s n) (ix2 (rowOf b s) n) (by
    rw [Shape.rowMajor_val_three, Shape.rowMajor_val_two]
    show (b.val * 512 + s.val) * 16384 + n.val = (b.val * 512 + s.val) * 16384 + n.val
    rfl)]
  show (∑ k : Fin 4096, shapeCast SX2 x hx (ix2 (rowOf b s) k)
      * (FloatOps.sitofp (F := Ideal) .f32 (q (ix2 n k)) * shapeCast SCol scale hs (ix2 n (0 : Fin 1))))
      + shapeCast SRow bias hb (ix2 (0 : Fin 1) n)
    = (∑ k : Fin 4096, x (ix3 b s k) * (FloatOps.sitofp (F := Ideal) .f32 (q (ix2 n k)) * scale (ix1 n))) + bias (ix1 n)
  rw [shapeCast_a_a1_apply scale hs n 0, shapeCast_a_1a_apply bias hb 0 n]
  exact congrArg (· + bias (ix1 n)) (Finset.sum_congr rfl fun k _ => by rw [flatX_apply x hx b s k])

end Cert.Linear

end
-- ==== Proof.RefIsLinear.lean ====
/-
  The reference computes `linear`.

  Its eight operations are: the integer weight converted to floats; the scale vector made a column and that column
  spread over the 4096 lanes; their product W; the contraction of the activations' last axis with W's last axis; the
  bias vector made [1, 1, 16384] and spread over the 2 × 512 rows; the sum. Read at an entry (b, s, n) and unfolded
  one operation at a time, the result is  (∑ k, x[b, s, k] · (float(q[n, k]) · scale[n])) + bias[n]:  the two
  broadcasts of the scale compose to "entry n", those of the bias likewise, and the contraction's operand indices at
  position k are (b, s, k) and (n, k).
-/
import proofs.«101968_j18021682774289_1_alg».proof.Proof.Gen.ReferenceIdeal.Read
import proofs.«101968_j18021682774289_1_alg».proof.Proof.LinearSpec

noncomputable section

open scoped BigOperators

namespace Cert.ReferenceIdeal.RefValue

open Cert.ReferenceIdeal Cert.ReferenceIdeal.Read Idealize.ShloMosaic Idealize.ShloMosaic.ValueIdx

/-- The contraction reads the activations at (b, s, k), -/
theorem lidx_eq (b : Fin 2) (s : Fin 512) (n : Fin 16384) (k : Fin 4096) : lidx_main_v4 (ix3 b s n) k = ix3 b s k :=
  funext fun a => Fin.ext (by match a with | ⟨0, _⟩ => rfl | ⟨1, _⟩ => rfl | ⟨2, _⟩ => rfl)

/-- and the weight at (n, k). -/
theorem ridx_eq (b : Fin 2) (s : Fin 512) (n : Fin 16384) (k : Fin 4096) : ridx_main_v4 (ix3 b s n) k = ix2 n k :=
  funext fun a => Fin.ext (by match a with | ⟨0, _⟩ => rfl | ⟨1, _⟩ => rfl)

/-- The scale spread over the weight's shape is, at (n, k), the scale's entry n. -/
theorem scale_idx (n : Fin 16384) (k : Fin 4096) : idx_main_v1 (idx_main_v2 (ix2 n k)) = ix1 n :=
  funext fun a => Fin.ext (by match a with | ⟨0, _⟩ => rfl)

/-- The bias spread over the result's shape is, at (b, s, n), the bias's entry n. -/
theorem bias_idx (b : Fin 2) (s : Fin 512) (n : Fin 16384) : idx_main_v5 (idx_main_v6 (ix3 b s n)) = ix1 n :=
  funext fun a => Fin.ext (by match a with | ⟨0, _⟩ => rfl)

/-- The reference's result, as a function of the four arguments, is `linear`. -/
theorem ref_is_linear (x0 : (⟨S2x512x4096, .f32⟩ : BufTy).Contents (Elt Ideal)) (x1 : (⟨S16384x4096, .i32⟩ : BufTy).Contents (Elt Ideal))
    (x2 x3 : (⟨S16384, .f32⟩ : BufTy).Contents (Elt Ideal)) :
    val_main_v7 (F := Ideal) x0 x1 x2 x3 = Cert.Linear.linear x0 x1 x2 x3 := by
  funext i
  obtain ⟨b, s, n, rfl⟩ : ∃ (b : Fin 2) (s : Fin 512) (n : Fin 16384), i = ix3 b s n := ⟨i 0, i 1, i 2, eq_ix3 i⟩
  rw [val_main_v7_apply, val_main_v4_apply, val_main_v6_apply, val_main_v5_apply, bias_idx]
  show (∑ k : Fin 4096, x0 (lidx_main_v4 (ix3 b s n) k) * val_main_v3 (F := Ideal) x1 x2 (ridx_main_v4 (ix3 b s n) k)) + x3 (ix1 n)
    = (∑ k : Fin 4096, x0 (ix3 b s k) * (FloatOps.sitofp (F := Ideal) .f32 (x1 (ix2 n k)) * x2 (ix1 n))) + x3 (ix1 n)
  refine congrArg (· + x3 (ix1 n)) (Finset.sum_congr rfl fun k _ => ?_)
  rw [lidx_eq, ridx_eq, val_main_v3_apply, val_main_v0_apply, val_main_v2_apply, val_main_v1_apply, scale_idx]
  rfl

end Cert.ReferenceIdeal.RefValue

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.KernelBlock.lean ====
/-
  What the kernel body stores, at an entry.

  At a grid point the body holds a block of 256 flattened activation rows x0 [256, 4096], a block of 512 weight rows
  q [512, 4096] with their scales as a column sc [512, 1], and the matching 512 bias entries as a row bs [1, 512]. It
  forms  W = float(q) · sc  (the column spread over the lanes), transposes it to [4096, 512], multiplies  x0 · Wᵀᵀ
  into a zero accumulator and adds the bias row spread over the 256 rows. The narrowing to sixteen-bit floats before
  the product is the identity on the ideal values. So the stored block, at (p, n), is
      (∑ k < 4096, x0[p, k] · (float(q[n, k]) · sc[n, 0])) + bs[0, n]:
  the product's entry (p, n) is the plain sum over the shared axis of x0[p, k] · Wᵀ[k, n], and Wᵀ[k, n] = W[n, k].
-/
import proofs.«101968_j18021682774289_1_alg».proof.Proof.Gen.KernelIdeal.Skeleton
import Idealize.ShloMosaic.Lib.ValueLayout
import Idealize.ShloMosaic.Lib.Pipeline.Value
import proofs.«101968_j18021682774289_1_alg».proof.Proof.LibDotRowsCols
import proofs.«101968_j18021682774289_1_alg».proof.Proof.LibColumn
import proofs.«101968_j18021682774289_1_alg».proof.Proof.LinearSpec

noncomputable section

open scoped BigOperators

namespace Cert.KernelIdeal.Block

open Cert.KernelIdeal Cert.KernelIdeal.Gen Idealize.ShloMosaic Idealize.ShloMosaic.ValueIdx

/-- The body's product contracts the activations' lanes with the transposed weight's rows. -/
theorem dot_rowsCols : Cert.Lib.DotRowsCols.RowsCols dot_S256x4096_S4096x512_S256x512_1_0_0_1_n_n :=
  ⟨rfl, rfl, rfl, rfl, rfl, rfl⟩

/-- The stored block at (p, n). -/
theorem stored_apply (x0 : Vec Ideal S256x4096 .f32) (q : Vec Ideal S512x4096 .i32) (sc : Vec Ideal S512x1 .f32)
    (bs : Vec Ideal S1x512 .f32) (p : Fin 256) (n : Fin 512) :
    k0_pay1 (F := Ideal) x0 q sc bs (ix2 p n)
      = (∑ k : Fin 4096, x0 (ix2 p k) * (FloatOps.sitofp (F := Ideal) .f32 (q (ix2 n k)) * sc (ix2 n (0 : Fin 1))))
        + bs (ix2 (0 : Fin 1) n) := by
  unfold k0_pay1
  dsimp only
  simp only [shapeCast_self]
  rw [addf_apply, dot_rowsCols.matmul_zero_apply, broadcastTo_1b_ab_apply]
  refine congrArg (· + bs (ix2 (0 : Fin 1) n)) (Finset.sum_congr rfl fun k _ => ?_)
  rw [truncf_apply, transpose_ix2_apply, truncf_apply, mulf_apply, sitofp_apply, broadcastTo_a1_ab_apply]

/-- So a stored block is a block of `linearRows` of any four arrays whose entries the block's operands are: if, for the
    block entry j and an array entry i, row j₀ of x0 is row i₀ of X2, row j₁ of q is row i₁ of Q, and the scale and
    bias entries j₁ are the entries i₁ of the column SC and of the row BS, then the stored value at j is
    `linearRows X2 Q SC BS` at i. -/
theorem stored_eq_rows (x0 : Vec Ideal S256x4096 .f32) (q : Vec Ideal S512x4096 .i32) (sc : Vec Ideal S512x1 .f32)
    (bs : Vec Ideal S1x512 .f32) (X2 : Cert.Linear.SX2.Idx → EReal) (Q : Cert.Linear.SQ.Idx → BitVec 32)
    (SC : Cert.Linear.SCol.Idx → EReal) (BS : Cert.Linear.SRow.Idx → EReal) (j : S256x512.Idx) (i : Cert.Linear.SY2.Idx)
    (hx : ∀ k : Fin 4096, x0 (ix2 (j 0) k) = X2 (ix2 (i 0) k))
    (hq : ∀ k : Fin 4096, q (ix2 (j 1) k) = Q (ix2 (i 1) k))
    (hs : sc (ix2 (j 1) (0 : Fin 1)) = SC (ix2 (i 1) (0 : Fin 1)))
    (hb : bs (ix2 (0 : Fin 1) (j 1)) = BS (ix2 (0 : Fin 1) (i 1))) :
    k0_pay1 (F := Ideal) x0 q sc bs j = Cert.Linear.linearRows X2 Q SC BS i := by
  obtain ⟨p, n, rfl⟩ : ∃ (p : Fin 256) (n : Fin 512), j = ix2 p n := ⟨j 0, j 1, eq_ix2 j⟩
  refine (stored_apply x0 q sc bs p n).trans ?_
  unfold Cert.Linear.linearRows
  exact congrArg₂ (· + ·) (Finset.sum_congr rfl fun k _ =>
    congrArg₂ (· * ·) (hx k) (congrArg₂ (· * ·) (congrArg (FloatOps.sitofp (F := Ideal) .f32) (hq k)) hs)) hb

end Cert.KernelIdeal.Block

end
-- ==== Proof.KernelArray.lean ====
/-
  From the blocks to the whole array: after the region, the kernel's output array holds `linearRows` of the four
  arrays the region reads.

  The grid has 32 × 4 points; point t = j · 4 + i  (j < 32 the block of 512 output columns, i < 4 the block of 256
  rows) reads rows [256 i, 256 i + 256) of the flattened activations, rows [512 j, 512 j + 512) of the integer weight
  and of the scale column, lanes [512 j, 512 j + 512) of the bias row, and writes back the block of the result at rows
  [256 i, …) and columns [512 j, …). A block's entry at local coordinate y on an axis sits in its array at
  block index × block size + y. So the entry (p, n) of the block written at t is `linearRows` at
  (256 i + p, 512 j + n): its operands' rows are the matching rows of the whole arrays (`flushed_eq`, over
  `stored_eq_rows`). The 128 blocks tile the [1024, 16384] array — entry (r, n) is in the block of point
  (n / 512) · 4 + r / 256 — so the whole array ends holding `linearRows`.
-/
import proofs.«101968_j18021682774289_1_alg».proof.Proof.Gen.KernelIdeal.Frame
import Idealize.ShloMosaic.Lib.Pipeline.Value
import proofs.«101968_j18021682774289_1_alg».proof.Proof.LinearSpec
import proofs.«101968_j18021682774289_1_alg».proof.Proof.KernelBlock

set_option maxRecDepth 16384

noncomputable section

open scoped BigOperators

namespace Cert.KernelIdeal.Arr

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- The flattened layer of the four arrays as the region finds them. -/
abbrev rowsAt (c : Dev nD) : Cert.Linear.SY2.Idx → EReal :=
  Cert.Linear.linearRows (V m c main_v0) (V m c main_arg1) (V m c main_v1) (V m c main_v2)

/-- The printed index maps over the grid: at point t the output's block is (t mod 4, t div 4); the activations' block
    is its row block, the weight's, the scale's and the bias's are its column block. -/
theorem block_indices : ∀ t : Fin cfg0.N,
    win0_4.index t (0 : Fin 2) = t.val % 4 ∧ win0_4.index t (1 : Fin 2) = t.val / 4
    ∧ win0_0.index t (0 : Fin 2) = t.val % 4 ∧ win0_0.index t (1 : Fin 2) = 0
    ∧ win0_1.index t (0 : Fin 2) = t.val / 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val / 4 :=
  (by decide +kernel : ∀ t : Fin grid0.N, _)

/-- What point t writes back is block t of `rowsAt`. -/
theorem flushed_eq (c : Dev nD) (t : Fin cfg0.N) :
    (dats m 0 c).flushed 4 t = ((cfg0.win 4).blk t).view.read (Elt Ideal) (rowsAt m c) := by
  show (cfg0.win 4).cut (grid0.coords t) ((dats m 0 c).after 4 t) = _
  rw [after0_4]
  unfold out0_4
  rw [View.canon_unit_zero zero_offsets]
  simp only [View.ld_unit_zero (S := S256x4096) zero_offsets, View.ld_unit_zero (S := S512x4096) zero_offsets,
    View.ld_unit_zero (S := S512x1) zero_offsets, View.ld_unit_zero (S := S1x512) zero_offsets]
  obtain ⟨o0, o1, a0, a1, b0, b1, s0, s1, r0, r1⟩ := block_indices t
  funext j
  show k0_pay1 (F := Ideal) (iblk m c 0 t) (iblk m c 1 t) (iblk m c 2 t) (iblk m c 3 t) j
    = rowsAt m c (((cfg0.win 4).blk t).view.emb j)
  have hj0 : (j 0).val < 256 := (j 0).isLt
  have hj1 : (j 1).val < 512 := (j 1).isLt
  refine Cert.KernelIdeal.Block.stored_eq_rows (iblk m c 0 t) (iblk m c 1 t) (iblk m c 2 t) (iblk m c 3 t)
    (V m c main_v0) (V m c main_arg1) (V m c main_v1) (V m c main_v2) j (((cfg0.win 4).blk t).view.emb j) ?_ ?_ ?_ ?_
  · intro k
    show V m c main_v0 (((cfg0.win 0).blk t).view.emb (ix2 (j 0) k)) = V m c main_v0 (ix2 ((((cfg0.win 4).blk t).view.emb j) 0) k)
    refine congrArg (V m c main_v0) (funext fun a => Fin.ext ?_)
    match a with
    | ⟨0, _⟩ => show win0_0.index t (0 : Fin 2) * 256 + 1 * (j 0).val = win0_4.index t (0 : Fin 2) * 256 + 1 * (j 0).val; omega
    | ⟨1, _⟩ => show win0_0.index t (1 : Fin 2) * 4096 + 1 * k.val = k.val; omega
  · intro k
    show V m c main_arg1 (((cfg0.win 1).blk t).view.emb (ix2 (j 1) k)) = V m c main_arg1 (ix2 ((((cfg0.win 4).blk t).view.emb j) 1) k)
    refine congrArg (V m c main_arg1) (funext fun a => Fin.ext ?_)
    match a with
    | ⟨0, _⟩ => show win0_1.index t (0 : Fin 2) * 512 + 1 * (j 1).val = win0_4.index t (1 : Fin 2) * 512 + 1 * (j 1).val; omega
    | ⟨1, _⟩ => show win0_1.index t (1 : Fin 2) * 4096 + 1 * k.val = k.val; omega
  · show V m c main_v1 (((cfg0.win 2).blk t).view.emb (ix2 (j 1) (0 : Fin 1))) = V m c main_v1 (ix2 ((((cfg0.win 4).blk t).view.emb j) 1) (0 : Fin 1))
    refine congrArg (V m c main_v1) (funext fun a => Fin.ext ?_)
    match a with
    | ⟨0, _⟩ => show win0_2.index t (0 : Fin 2) * 512 + 1 * (j 1).val = win0_4.index t (1 : Fin 2) * 512 + 1 * (j 1).val; omega
    | ⟨1, _⟩ => show win0_2.index t (1 : Fin 2) * 1 + 1 * 0 = 0; omega
  · show V m c main_v2 (((cfg0.win 3).blk t).view.emb (ix2 (0 : Fin 1) (j 1))) = V m c main_v2 (ix2 (0 : Fin 1) ((((cfg0.win 4).blk t).view.emb j) 1))
    refine congrArg (V m c main_v2) (funext fun a => Fin.ext ?_)
    match a with
    | ⟨0, _⟩ => show win0_3.index t (0 : Fin 2) * 1 + 1 * 0 = 0; omega
    | ⟨1, _⟩ => show win0_3.index t (1 : Fin 2) * 512 + 1 * (j 1).val = win0_4.index t (1 : Fin 2) * 512 + 1 * (j 1).val; omega

/-- An entry of the output array is in point t's block iff each coordinate is in the block's range on its axis. -/
theorem mem_block (t : Fin cfg0.N) (i : S1024x16384.Idx) :
    i ∈ ((cfg0.win 4).blk t).view.set ↔ ∀ a : Fin 2, win0_4.index t a * S256x512.size a ≤ (i a).val
      ∧ (i a).val < win0_4.index t a * S256x512.size a + S256x512.size a := by
  show i ∈ ((View.whole main_v3).slice (win0_4.rect t)).set ↔ _
  rw [View.set_slice_whole, Rect.mem_set_unit]
  exact Iff.rfl

/-- The blocks tile the array: entry (r, n) is in the block of point (n / 512) · 4 + r / 256. -/
theorem covered (i : S1024x16384.Idx) :
    ∃ t : Fin cfg0.N, (cfg0.win 4).flush t = true ∧ i ∈ ((cfg0.win 4).blk t).view.set := by
  have hi0 : (i 0).val < 1024 := (i 0).isLt
  have hi1 : (i 1).val < 16384 := (i 1).isLt
  let t : Fin cfg0.N := ⟨(i 1).val / 512 * 4 + (i 0).val / 256, by rw [show cfg0.N = 128 from N_0]; omega⟩
  have ht : t.val = (i 1).val / 512 * 4 + (i 0).val / 256 := rfl
  obtain ⟨o0, o1, -⟩ := block_indices t
  refine ⟨t, flush0_4 t, ?_⟩
  rw [mem_block]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 512 ≤ (i 1).val ∧ (i 1).val < win0_4.index t (1 : Fin 2) * 512 + 512; omega

/-- The output array after the region. -/
theorem out_array (c : Dev nD) : (dats m 0 c).arrAt 4 cfg0.N = rowsAt m c :=
  (dats m 0 c).arrAt_eq_of_cover 4 (rowsAt m c) (fun t _ => flushed_eq m c t) covered

end Cert.KernelIdeal.Arr

end
-- ==== Proof.KernelRun.lean ====
/-
  The kernel program's run, read: its result is `linear` of the four arguments.

  Before the region the program re-lays the activations [2, 512, 4096] as the 1024 rows [1024, 4096], the scale as a
  column [16384, 1] and the bias as a row [1, 16384] (three reshapes: row-major order kept); the integer weight goes
  in as it is. The region leaves `linearRows` of those four in its output array [1024, 16384] (the blocks tile it).
  After the region one reshape lays that array out as [2, 512, 16384]. A reshape of `linearRows` of the reshaped
  arguments is `linear` of the arguments (`linear_eq_rows`).
-/
import proofs.«101968_j18021682774289_1_alg».proof.Proof.Gen.KernelIdeal.Frame
import Idealize.ShloMosaic.Lib.StableHlo.Run
import proofs.«101968_j18021682774289_1_alg».proof.Proof.LinearSpec
import proofs.«101968_j18021682774289_1_alg».proof.Proof.KernelArray

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-- The region finds the activations flattened to 1024 rows, -/
theorem entry_rows (c : Dev nD) : (V m c main_v0 : S1024x4096.Idx → EReal)
    = shapeCast S1024x4096 (m ((c : Thread nD τ).loc main_arg0)) shapeCasts_S2x512x4096_S1024x4096 := by
  show StableHlo.after hostOps0 (fun b => m (c, b)) (Proc.devRef .tc main_v0) = _
  after_results
  rfl

/-- the scale as a column, -/
theorem entry_scale (c : Dev nD) : (V m c main_v1 : S16384x1.Idx → EReal)
    = shapeCast S16384x1 (m ((c : Thread nD τ).loc main_arg2)) shapeCasts_S16384_S16384x1 := by
  show StableHlo.after hostOps0 (fun b => m (c, b)) (Proc.devRef .tc main_v1) = _
  after_results
  rfl

/-- and the bias as a row. -/
theorem entry_bias (c : Dev nD) : (V m c main_v2 : S1x16384.Idx → EReal)
    = shapeCast S1x16384 (m ((c : Thread nD τ).loc main_arg3)) shapeCasts_S16384_S1x16384 := by
  show StableHlo.after hostOps0 (fun b => m (c, b)) (Proc.devRef .tc main_v2) = _
  after_results
  rfl

/-- The result buffer after the lines that follow the region: the region's output array, laid out as [2, 512, 16384]. -/
theorem tail_result (c : Dev nD) :
    Pipeline.afterTail₀ cfgs (dats m) 0 (V0 m) [hostOps1] c main_v4
      = shapeCast S2x512x16384 ((dats m 0 c).arrAt 4 cfg0.N) shapeCasts_S1024x16384_S2x512x16384 := by
  unfold Pipeline.afterTail₀
  show StableHlo.after hostOps1 _ (Proc.devRef .tc main_v4) = _
  after_results
  show shapeCast S2x512x16384 (Pipeline.withArrays spec0 c (V0 m c) (fun w => (dats m 0 c).arrAt w cfg0.N)
      (Proc.devRef .tc (Pipeline.arrRef spec0 4))) shapeCasts_S1024x16384_S2x512x16384 = _
  rw [Pipeline.withArrays_arr spec0 launch0.win.arr_inj c (V0 m c) (fun w => (dats m 0 c).arrAt w cfg0.N) 4]

/-- So the result buffer ends holding `linear` of the four arguments as launched. -/
theorem result_eq (c : Dev nD) :
    Pipeline.afterTail₀ cfgs (dats m) 0 (V0 m) [hostOps1] c main_v4
      = Cert.Linear.linear (m ((c.tc : Thread nD τ).loc main_arg0)) (m ((c.tc : Thread nD τ).loc main_arg1))
          (m ((c.tc : Thread nD τ).loc main_arg2)) (m ((c.tc : Thread nD τ).loc main_arg3)) := by
  rw [tail_result, Cert.KernelIdeal.Arr.out_array]
  show shapeCast S2x512x16384 (Cert.Linear.linearRows (V m c main_v0) (V m c main_arg1) (V m c main_v1) (V m c main_v2))
    shapeCasts_S1024x16384_S2x512x16384 = _
  rw [entry_rows, entry_scale, entry_bias, V_main_arg1]
  exact Cert.Linear.linear_eq_rows _ _ _ _ _ _ _ _

/-- The run: every weakly fair execution terminates with the result buffer at `linear` of the arguments and the
    arguments as launched. -/
theorem run : θ_run defs (onTc (τ := τ) (main (F := Ideal))) ⟨m, fun _ => 0, ρ⟩ (fun r => ∀ c : Dev nD,
      r.2.mem ((c.tc : Thread nD τ).loc main_v4)
        = Cert.Linear.linear (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.lean ====
/-
  An 8-bit-quantized linear layer, tiled, against its plain formula.

  Both programs take activations x [2, 512, 4096], an integer weight q [16384, 4096], and a scale and a bias [16384],
  and both end holding
      y[b, s, n] = (∑ k < 4096, x[b, s, k] · (float(q[n, k]) · scale[n])) + bias[n]
  on the extended reals (`Cert.Linear.linear`, Proof/LinearSpec.lean).

  The reference forms  W = float(q) · scale  (the scale spread along the lanes), contracts x's last axis with W's last
  axis and adds the bias spread over the rows (Proof/RefIsLinear.lean, over the generated reading of its run).

  The kernel flattens (b, s) to 1024 rows, holds the scale as a column and the bias as a row, and on a 32 × 4 grid
  computes the [256, 512] block of  x2 · Wᵀ + bias  for 256 rows and 512 output columns from the full-depth row blocks
  of x2 and of W: no accumulation across grid points. A block's entry is the plain sum over the 4096 shared positions
  (Proof/KernelBlock.lean: the product into a zero accumulator is that sum; the narrowing to sixteen-bit floats is the
  identity on the ideal values; the transposed weight read at (k, n) is the weight at (n, k)); the 128 blocks tile the
  output array (Proof/KernelArray.lean); and flattening the rows, computing by rows and un-flattening changes no term
  of any sum (Proof/LinearSpec.lean `linear_eq_rows`, Proof/KernelRun.lean). Each product x · (float(q) · scale) is
  formed in the same order on both sides and each sum runs over the same 4096 terms, so the two results are equal at
  every input, infinite entries included: finiteness of the inputs is not used.

  The three frames are the generated ones (the reference's is its generated run with the result dropped); the
  idealization rewrote nothing, so `preserves` is trivial.
-/
import proofs.«101968_j18021682774289_1_alg».proof.Defs
import proofs.«101968_j18021682774289_1_alg».proof.Proof.Gen.Kernel
import proofs.«101968_j18021682774289_1_alg».proof.Proof.Gen.Kernel.Skeleton
import proofs.«101968_j18021682774289_1_alg».proof.Proof.Gen.Kernel.Launch
import proofs.«101968_j18021682774289_1_alg».proof.Proof.Gen.Kernel.Points
import proofs.«101968_j18021682774289_1_alg».proof.Proof.Gen.Kernel.Frame
import proofs.«101968_j18021682774289_1_alg».proof.Proof.Gen.KernelIdeal
import proofs.«101968_j18021682774289_1_alg».proof.Proof.Gen.KernelIdeal.Skeleton
import proofs.«101968_j18021682774289_1_alg».proof.Proof.Gen.KernelIdeal.Launch
import proofs.«101968_j18021682774289_1_alg».proof.Proof.Gen.KernelIdeal.Points
import proofs.«101968_j18021682774289_1_alg».proof.Proof.Gen.KernelIdeal.Frame
import proofs.«101968_j18021682774289_1_alg».proof.Proof.Gen.ReferenceIdeal
import proofs.«101968_j18021682774289_1_alg».proof.Proof.Gen.Pre_finite_inputs
import proofs.«101968_j18021682774289_1_alg».proof.Proof.Gen.ReferenceIdeal.Run
import proofs.«101968_j18021682774289_1_alg».proof.Proof.Gen.ReferenceIdeal.Read
import proofs.«101968_j18021682774289_1_alg».proof.Proof.RefIsLinear
import proofs.«101968_j18021682774289_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at `linear` of the arguments: the kernel by its run read block by block, the reference by its
    run read operation by operation, from memories that agree on the four arguments. -/
theorem algebraic : Cert.algebraic_KernelIdeal_ReferenceIdeal := by
  intro m ρ m' ρ' _ hagree
  refine ⟨fun c => Cert.Linear.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.ref_is_linear,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
